-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 24
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x4096_S8192x4096 : S4x2048x4096.ShapeCasts S8192x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x4096_S4096x4096_0_0 : ∀ a, (![0, 0] : Fin 2 → Nat) a + S4096x4096.size a ≤ S4096x4096.size a
  h_S4096x4096 : 0 < S4096x4096.numel
  reduces_S256x4096_S256 : S256x4096.Reduces [1] S256
  shapeCasts_S256_S256x1 : S256.ShapeCasts S256x1
  broadcasts_S256x1_S256x4096 : S256x1.Broadcasts S256x4096
  shapeCasts_S8192x4096_S4x2048x4096 : S8192x4096.ShapeCasts S4x2048x4096
  dot_S256x4096_S4096x4096_S256x4096_1_1_0_0_n_n_wf : DotDims.WF S256x4096 S4096x4096 S256x4096 [1] [1] [0] [0] [] []
  hcc0_scratch1 : 9 + S_.numel ≤ 10
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1x4096.size a ≤ S1x4096.size a
  hwx0_1 : ∀ i : grid0.Coords, EltTy.bits .f32 = 32 ∨ (Rect.block (s := S1x4096) S1x4096.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x4096.size a ≤ S1x4096.size a
  hwx0_2 : ∀ i : grid0.Coords, EltTy.bits .f32 = 32 ∨ (Rect.block (s := S1x4096) S1x4096.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x4096.size a ≤ S1x4096.size a
  hwx0_3 : ∀ i : grid0.Coords, EltTy.bits .f32 = 32 ∨ (Rect.block (s := S1x4096) S1x4096.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x4096.size a ≤ S1x4096.size a
  hwx0_4 : ∀ i : grid0.Coords, EltTy.bits .f32 = 32 ∨ (Rect.block (s := S1x4096) S1x4096.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x4096.size a ≤ S1x4096.size a
  hwx0_5 : ∀ i : grid0.Coords, EltTy.bits .f32 = 32 ∨ (Rect.block (s := S1x4096) S1x4096.size (cc0_transform_6 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_7 i = cc0_transform_7 i'
  hinb0_6 : ∀ (i : grid0.Coords) a, (cc0_transform_7 i a + 1) * S256x4096.size a ≤ S8192x4096.size a
  hwx0_6 : ∀ i : grid0.Coords, EltTy.bits .f32 = 32 ∨ (Rect.block (s := S8192x4096) S256x4096.size (cc0_transform_7 i) (hinb0_6 i)).WholeWords (EltTy.packing .f32)

variable [Facts₀]

abbrev cc0_scratch1 : DmaSems sig S_ := SemArray.consecutive 9 S_ hcc0_scratch1
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4096.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_6 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x4096.size cc0_transform_7 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, read as values.

  The body copies the whole matrix of signs from the array it is left in into a scratch buffer at the first point of each
  run of sixteen, and at every point multiplies, normalises and stores one block of 256 rows. So after every point the
  scratch buffer holds the matrix exactly as the region found it, and the output block is the body's one store: the
  payload of the input blocks and of that matrix.
-/
import proofs.«112393_j80350248173700_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- One write through the whole shape leaves its payload. -/
theorem canon_whole_piece {Val : EltTy → Type} [∀ e, Nonempty (Val e)] {S : Shape} {e : EltTy} (w : S.Idx → Val e) :
    View.canon [(⟨Rect.whole S, w⟩ : View.Piece Val S e)] = w := by
  funext y
  have h := View.canon_cons_emb (Val := Val) (Rect.whole S) w [] y
  rw [Rect.emb_whole_apply] at h
  exact h

/-- A load of the whole shape after one write through the whole shape reads that write's payload. -/
theorem readCov_whole_piece {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) :
    v.readCov [(⟨Rect.whole S, w⟩ : View.Piece Val S e)] (Rect.unit off S.size inb).toLoadRect = w := by
  subst h
  rw [View.readCov_eq_canon_ld _ _ _ (fun y => ⟨_, List.mem_singleton_self _, by
    show y ∈ (Rect.whole S).set; rw [Rect.set_whole]; exact Finset.mem_univ y⟩), canon_whole_piece, View.ld_unit_zero rfl]

/-- A point that does not copy: the output block is the payload of the input blocks and of what the scratch held. -/
theorem out_keep (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (hc0 : ¬cond0_0 i)
    (x0 : Vec F S256x4096 .f32) (x1 : Vec F S1x4096 .f32) (x2 : Vec F S1x4096 .f32) (x3 : Vec F S1x4096 .f32) (x4 : Vec F S1x4096 .f32) (x5 : Vec F S1x4096 .f32) (xs0 : Vec F S4096x4096 .bf16) (fh0 : HbBuf0 (F := F) c hbM0_0) :
    out0_B_6 c i arg2 harg2 arg4 harg4 arg5 harg5 arg6 harg6 arg7 harg7 arg8 harg8 arg9 harg9 arg10 harg10 hc0 x0 x1 x2 x3 x4 x5 xs0 fh0 = k0_pay1 (k0_pay2 x0 x1 xs0 x2 x3) x4 x5 := by
  unfold out0_B_6
  rw [View.read_writes_eq_canon _ _ _ (cover0_B_6 c i arg2 harg2 arg4 harg4 arg5 harg5 arg6 harg6 arg7 harg7 arg8 harg8 arg9 harg9 arg10 harg10 hc0 x0 x1 x2 x3 x4 x5 xs0 fh0)]
  unfold kernelRun0_B
  dsimp only
  sl_unfold_words
  rw [View.canon_unit_zero hz]
  simp only [View.readAt_eq_ld, harg2.read_unread, harg4.read_unread, harg5.read_unread, harg6.read_unread, harg7.read_unread,
    harg8.read_unread, harg10.read_unread, View.ld_unit_zero (S := S256x4096) hz, View.ld_unit_zero (S := S1x4096) hz,
    View.ld_unit_zero (S := S4096x4096) hz]

/-- A point that copies: the matrix the body loads is the one it has just copied in. -/
theorem out_copy (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (hc0 : cond0_0 i)
    (x0 : Vec F S256x4096 .f32) (x1 : Vec F S1x4096 .f32) (x2 : Vec F S1x4096 .f32) (x3 : Vec F S1x4096 .f32) (x4 : Vec F S1x4096 .f32) (x5 : Vec F S1x4096 .f32) (fh0 : HbBuf0 (F := F) c hbM0_0) :
    out0_A_6 c i arg2 harg2 arg4 harg4 arg5 harg5 arg6 harg6 arg7 harg7 arg8 harg8 arg9 harg9 arg10 harg10 hc0 x0 x1 x2 x3 x4 x5 fh0 = k0_pay1 (k0_pay2 x0 x1 fh0 x2 x3) x4 x5 := by
  unfold out0_A_6
  rw [View.read_writes_eq_canon _ _ _ (cover0_A_6 c i arg2 harg2 arg4 harg4 arg5 harg5 arg6 harg6 arg7 harg7 arg8 harg8 arg9 harg9 arg10 harg10 hc0 x0 x1 x2 x3 x4 x5 fh0)]
  unfold kernelRun0_A
  dsimp only
  sl_unfold_words
  rw [View.canon_unit_zero hz]
  simp only [View.readAt_eq_ld, harg2.read_unread, harg4.read_unread, harg5.read_unread, harg6.read_unread, harg7.read_unread,
    harg8.read_unread, View.ld_unit_zero (S := S256x4096) hz, View.ld_unit_zero (S := S1x4096) hz,
    readCov_whole_piece (S := S4096x4096) _ hz]
  rfl

/-- And the scratch then holds the copied matrix. -/
theorem scratch_copy (c : Dev nD) (i : grid0.Coords) (arg2 : Memref sig .tc .vmem S256x4096 .f32) (harg2 : arg2.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S256x4096 .f32) (harg9 : arg9.IsWhole) (arg10 : Memref sig .tc .vmem S4096x4096 .bf16) (harg10 : arg10.IsWhole) (hc0 : cond0_0 i)
    (x0 : Vec F S256x4096 .f32) (x1 : Vec F S1x4096 .f32) (x2 : Vec F S1x4096 .f32) (x3 : Vec F S1x4096 .f32) (x4 : Vec F S1x4096 .f32) (x5 : Vec F S1x4096 .f32) (fh0 : HbBuf0 (F := F) c hbM0_0) :
    sout0_A_0 c i arg2 harg2 arg4 harg4 arg5 harg5 arg6 harg6 arg7 harg7 arg8 harg8 arg9 harg9 arg10 harg10 hc0 x0 x1 x2 x3 x4 x5 fh0 = fh0 := by
  unfold sout0_A_0
  rw [View.read_writes_eq_canon _ _ _ (scover0_A_0 c i arg2 harg2 arg4 harg4 arg5 harg5 arg6 harg6 arg7 harg7 arg8 harg8 arg9 harg9 arg10 harg10 hc0 x0 x1 x2 x3 x4 x5 fh0)]
  unfold kernelRun0_A
  dsimp only
  sl_unfold_words
  rw [canon_whole_piece]
  rfl

end Cert.KernelIdeal.KValue

end
-- ==== Proof.Spec.lean ====
/-
  The mathematics both programs compute, stated once over plain functions of coordinates.

  A row `x` of 4096 inputs is scaled channel by channel (`a`), contracted against the rows of a matrix `W` (here the
  matrix of signs of the weights), scaled and shifted per output channel (`s`, `b`), and then normalised over its 4096
  outputs: the mean is removed, and the centred row is divided by the square root of its mean square plus a small
  positive constant, before the final per-channel scale `g` and shift `be`.

  The two programs differ in one step only: one multiplies the centred row by the reciprocal square root, the other
  divides it by the square root. A mean of squares is never negative on the extended reals (`⊥ · ⊥ = ⊤`), so the radicand
  is always above zero, and there — at a positive real, and at `⊤` where both sides are `0` — the two agree. No
  finiteness of the inputs is needed.
-/
import Idealize.ShloMosaic.PureOps.Ideal
import Idealize.ShloMosaic.Lib.ValueIdx

noncomputable section

namespace Cert.SignLinearNorm

open Idealize.ShloMosaic Idealize.ShloMosaic.ValueIdx

/-- The word both programs divide a row sum by: 4096. -/
abbrev cnt : EReal := Ideal.ofBits .f32 0x45800000#32
/-- The word both programs add under the root: the f32 nearest to 1e-5. -/
abbrev eps : EReal := Ideal.ofBits .f32 0x3727C5AC#32

theorem cnt_eq : cnt = ((4096 : ℝ) : EReal) := by
  simp [cnt, Ideal.ofBits, Ideal.ieee, -EReal.coe_mul]
  norm_num

theorem eps_eq : eps = ((10995116 / 1099511627776 : ℝ) : EReal) := by
  simp [eps, Ideal.ofBits, Ideal.ieee, -EReal.coe_mul]
  norm_num

theorem eps_pos : 0 < eps := by
  rw [eps_eq]; exact EReal.coe_pos.mpr (by norm_num)

/-! ## The row computation -/

/-- The affine row: channel-scaled inputs against row `o` of `W`, then the output channel's scale and shift. -/
def lin (W : Fin 4096 → Fin 4096 → EReal) (a s b : Fin 4096 → EReal) (x : Fin 4096 → EReal) (o : Fin 4096) : EReal :=
  (∑ k : Fin 4096, (x k * a k) * W o k) * s o + b o

/-- The mean of a row: its sum over the 4096 channels divided by 4096. -/
def mean (h : Fin 4096 → EReal) : EReal := Ideal.div (∑ o : Fin 4096, h o) cnt

/-- The row with its mean removed. -/
def ctr (h : Fin 4096 → EReal) (o : Fin 4096) : EReal := h o - mean h

/-- The mean square of the centred row. -/
def var (h : Fin 4096 → EReal) : EReal := mean fun o => ctr h o * ctr h o

/-- Normalising by a quotient: the centred row over the root of the variance plus `eps`. -/
def normDiv (h : Fin 4096 → EReal) (o : Fin 4096) : EReal := Ideal.div (ctr h o) (Ideal.sqrt (var h + eps))

/-- Normalising by a product with the reciprocal root. -/
def normRsqrt (h : Fin 4096 → EReal) (o : Fin 4096) : EReal := ctr h o * Ideal.rsqrt (var h + eps)

/-- The whole row computation, with the quotient. -/
def outDiv (W : Fin 4096 → Fin 4096 → EReal) (a s b g be : Fin 4096 → EReal) (x : Fin 4096 → EReal) (o : Fin 4096) : EReal :=
  normDiv (lin W a s b x) o * g o + be o

/-- The whole row computation, with the reciprocal root. -/
def outRsqrt (W : Fin 4096 → Fin 4096 → EReal) (a s b g be : Fin 4096 → EReal) (x : Fin 4096 → EReal) (o : Fin 4096) : EReal :=
  normRsqrt (lin W a s b x) o * g o + be o

/-! ## The one law that joins them -/

/-- A square is never negative on the extended reals. -/
theorem mul_self_nonneg (c : EReal) : 0 ≤ c * c := by
  induction c using EReal.rec with
  | bot => simp
  | top => simp
  | coe r => rw [← EReal.coe_mul]; exact_mod_cast _root_.mul_self_nonneg r

/-- A mean of nonnegative terms is nonnegative: the sum is, and dividing by 4096 is multiplying by a positive real. -/
theorem mean_nonneg (h : Fin 4096 → EReal) (hh : ∀ o, 0 ≤ h o) : 0 ≤ mean h := by
  unfold mean
  rw [cnt_eq, Ideal.div_coe (by norm_num : (4096 : ℝ) ≠ 0)]
  exact EReal.mul_nonneg (Finset.sum_nonneg fun o _ => hh o) (EReal.coe_nonneg.mpr (by norm_num))

/-- So the radicand is above zero, whatever the row holds. -/
theorem radicand_pos (h : Fin 4096 → EReal) : 0 < var h + eps :=
  lt_of_lt_of_le eps_pos (le_add_of_nonneg_left (mean_nonneg _ fun o => mul_self_nonneg (ctr h o)))

/-- Above zero, multiplying by the reciprocal root is dividing by the root: at a positive real both are the product
    with `(√r)⁻¹`, at `⊤` both are `0`. -/
theorem mul_rsqrt_eq_div_sqrt (c v : EReal) (hv : 0 < v) : c * Ideal.rsqrt v = Ideal.div c (Ideal.sqrt v) := by
  induction v using EReal.rec with
  | bot => exact absurd hv (not_lt.mpr bot_le)
  | top => rw [Ideal.rsqrt_top, Ideal.sqrt_top, Ideal.div, if_neg EReal.top_ne_zero, EReal.inv_top, mul_zero]
  | coe r =>
    have hr : 0 < r := EReal.coe_pos.mp hv
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), EReal.coe_inv]

theorem normRsqrt_eq_normDiv (h : Fin 4096 → EReal) (o : Fin 4096) : normRsqrt h o = normDiv h o :=
  mul_rsqrt_eq_div_sqrt _ _ (radicand_pos h)

/-- The two row computations are one function. -/
theorem outRsqrt_eq_outDiv (W : Fin 4096 → Fin 4096 → EReal) (a s b g be : Fin 4096 → EReal) (x : Fin 4096 → EReal) (o : Fin 4096) :
    outRsqrt W a s b g be x o = outDiv W a s b g be x o := by
  unfold outRsqrt outDiv
  rw [normRsqrt_eq_normDiv]

/-! ## The whole array -/

/-- The 8192 × 4096 result as one function of the arrays: entry `(n, o)` is the row computation of row `n` of `X`
    at channel `o`, the matrix and the five channel vectors read coordinate by coordinate. -/
def result (X : (⟨2, ![8192, 4096]⟩ : Shape).Idx → EReal) (W : (⟨2, ![4096, 4096]⟩ : Shape).Idx → EReal)
    (a s b g be : (⟨1, ![4096]⟩ : Shape).Idx → EReal) : (⟨2, ![8192, 4096]⟩ : Shape).Idx → EReal :=
  fun j => outDiv (fun o k => W (ix2 o k)) (fun k => a (ix1 k)) (fun k => s (ix1 k)) (fun k => b (ix1 k))
    (fun k => g (ix1 k)) (fun k => be (ix1 k)) (fun k => X (ix2 (j 0) k)) (j 1)

end Cert.SignLinearNorm

end
-- ==== Proof.Payload.lean ====
/-
  The body's arithmetic read at one entry of its block.

  The payload is split at the affine row (the contraction against the matrix, then the output channel's scale and shift)
  and the normalisation of a block of rows; each is read at entry `(p, q)` of the 256 × 4096 block as the specification's
  row computation of row `p` at channel `q`.
-/
import proofs.«112393_j80350248173700_1_alg».proof.Proof.Gen.KernelIdeal.Skeleton
import proofs.«112393_j80350248173700_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KValue

open Cert.KernelIdeal Cert.KernelIdeal.Gen Cert.SignLinearNorm

/-! ## Layout steps read at an entry -/

/-- A column of row statistics broadcast along the rows is read at its row. -/
theorem colBcast_apply {α : Type} (u : S256x1.Idx → α) (h : S256x1.Broadcasts S256x4096) (p : Fin 256) (q : Fin 4096) :
    broadcastTo S256x4096 u h (ix2 p q) = u (ix2 p (0 : Fin 1)) := by
  refine broadcastTo_apply u h (ix2 p q) (ix2 p (0 : Fin 1)) fun ax => ?_
  match ax with
  | ⟨0, _⟩ =>
    show p.val = if (256 : Nat) = 1 then 0 else p.val
    rw [if_neg (by decide)]
  | ⟨1, _⟩ => rfl

/-- A vector of row statistics kept as a column is read at its row. -/
theorem keepCol_apply {α : Type} (r : S256.Idx → α) (h : S256.ShapeCasts S256x1) (p : Fin 256) :
    shapeCast S256x1 r h (ix2 p (0 : Fin 1)) = r (ix1 p) := by
  refine shapeCast_apply r h (ix2 p (0 : Fin 1)) (ix1 p) ?_
  rw [Shape.rowMajor_val_one, Shape.rowMajor_val_two]
  show p.val = p.val * 1 + 0
  omega

/-- A channel row broadcast down the block is read at its channel. -/
theorem rowBcast_apply {α : Type} (v : S1x4096.Idx → α) (h1 : S1x4096.ShapeCasts S1x4096) (h2 : S1x4096.Broadcasts S256x4096)
    (p : Fin 256) (q : Fin 4096) :
    broadcastTo S256x4096 (shapeCast S1x4096 v h1) h2 (ix2 p q) = v (ix2 (0 : Fin 1) q) := by
  rw [shapeCast_self]
  exact broadcastTo_1b_ab_apply v h2 p q

/-- The sum along a row of the block. -/
theorem rowSum_apply (src : FVec Ideal S256x4096 .f32) (h : S256x4096.Reduces [1] S256) (hφ : FKind.Formats .f32)
    (hacc : (0x00000000#32 : BitVec 32) = 0x00000000#32) (p : Fin 256) :
    multiReduction .add [1] S256 src 0x00000000#32 h hφ hacc (ix1 p) = ∑ k : Fin 4096, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The contraction -/

theorem lhs_dot_0 (i : S256x4096.Idx) (q : dot_S256x4096_S4096x4096_S256x4096_1_1_0_0_n_n.contr.Idx) :
    (dot_S256x4096_S4096x4096_S256x4096_1_1_0_0_n_n.lhsIdx i q 0).val = (i 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl
theorem lhs_dot_1 (i : S256x4096.Idx) (q : dot_S256x4096_S4096x4096_S256x4096_1_1_0_0_n_n.contr.Idx) :
    (dot_S256x4096_S4096x4096_S256x4096_1_1_0_0_n_n.lhsIdx i q 1).val = (q ⟨0, by decide⟩).val :=
  dot_S256x4096_S4096x4096_S256x4096_1_1_0_0_n_n.lhsIdx_val_of_single rfl i q
theorem rhs_dot_0 (i : S256x4096.Idx) (q : dot_S256x4096_S4096x4096_S256x4096_1_1_0_0_n_n.contr.Idx) :
    (dot_S256x4096_S4096x4096_S256x4096_1_1_0_0_n_n.rhsIdx i q 0).val = (i 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl
theorem rhs_dot_1 (i : S256x4096.Idx) (q : dot_S256x4096_S4096x4096_S256x4096_1_1_0_0_n_n.contr.Idx) :
    (dot_S256x4096_S4096x4096_S256x4096_1_1_0_0_n_n.rhsIdx i q 1).val = (q ⟨0, by decide⟩).val :=
  dot_S256x4096_S4096x4096_S256x4096_1_1_0_0_n_n.rhsIdx_val_of_single rfl i q

/-- The block's product into a zero accumulator: entry `(p, q)` is row `p` of the left operand against ROW `q` of the
    right one (both contract their second axis). -/
theorem contract_apply (Lh : FVec Ideal S256x4096 .bf16) (Rh : FVec Ideal S4096x4096 .bf16) (p : Fin 256) (q : Fin 4096) :
    matmul dot_S256x4096_S4096x4096_S256x4096_1_1_0_0_n_n none Lh Rh (constant S256x4096 .f32 0x00000000#32) (ix2 p q)
      = ∑ k : Fin 4096, Lh (ix2 p k) * Rh (ix2 q k) := by
  simp only [matmul]
  rw [Ideal.matmul_constant_zero_apply, ← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx (ix2 p q) ((contrEquiv1 dot_S256x4096_S4096x4096_S256x4096_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S256x4096_S4096x4096_S256x4096_1_1_0_0_n_n.rhsIdx (ix2 p q) ((contrEquiv1 dot_S256x4096_S4096x4096_S256x4096_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-! ## The payload in two parts -/

variable {F : FTy → Type} [FloatOps F]

/-- The affine block: the channel-scaled input block against the matrix, then the output channels' scale and shift. -/
def affBlock (x0 : Vec F S256x4096 .f32) (x1 : Vec F S1x4096 .f32) (w : Vec F S4096x4096 .bf16) (x2 x3 : Vec F S1x4096 .f32) :
    FVec F S256x4096 .f32 :=
  addf (mulf (matmul dot_S256x4096_S4096x4096_S256x4096_1_1_0_0_n_n none
      (truncf .bf16 (mulf (shapeCast S256x4096 x0 shapeCasts_S256x4096_S256x4096)
        (broadcastTo S256x4096 (shapeCast S1x4096 x1 shapeCasts_S1x4096_S1x4096) broadcasts_S1x4096_S256x4096)) bitsLt_bf16_f32)
      w (constant S256x4096 .f32 0x00000000#32))
    (broadcastTo S256x4096 (shapeCast S1x4096 x2 shapeCasts_S1x4096_S1x4096) broadcasts_S1x4096_S256x4096))
  (broadcastTo S256x4096 (shapeCast S1x4096 x3 shapeCasts_S1x4096_S1x4096) broadcasts_S1x4096_S256x4096)

/-- The mean of each row of a block, kept as a column. -/
def rowMean (h : FVec F S256x4096 .f32) : FVec F S256x1 .f32 :=
  divf (shapeCast S256x1 (multiReduction .add [1] S256 h 0x00000000#32 reduces_S256x4096_S256 (.inl rfl) rfl) shapeCasts_S256_S256x1)
    (broadcast S256x1 (Scalar.ofBits .f32 0x45800000#32))

/-- A block with each row's mean removed. -/
def ctrBlock (h : FVec F S256x4096 .f32) : FVec F S256x4096 .f32 :=
  subf h (broadcastTo S256x4096 (rowMean h) broadcasts_S256x1_S256x4096)

/-- The normalised block: each centred row times the reciprocal root of its mean square plus the small constant. -/
def nrmBlock (h : FVec F S256x4096 .f32) : FVec F S256x4096 .f32 :=
  mulf (ctrBlock h) (broadcastTo S256x4096
    (rsqrt (addf (rowMean (mulf (ctrBlock h) (ctrBlock h))) (broadcast S256x1 (Scalar.ofBits .f32 0x3727C5AC#32))))
    broadcasts_S256x1_S256x4096)

/-- The body's first payload is the normalised affine block. -/
theorem pay2_eq (x0 : Vec F S256x4096 .f32) (x1 : Vec F S1x4096 .f32) (w : Vec F S4096x4096 .bf16) (x2 x3 : Vec F S1x4096 .f32) :
    k0_pay2 x0 x1 w x2 x3 = nrmBlock (affBlock x0 x1 w x2 x3) := rfl

/-- The affine block at an entry. -/
theorem affBlock_apply (x0 : Vec Ideal S256x4096 .f32) (x1 : Vec Ideal S1x4096 .f32) (w : Vec Ideal S4096x4096 .bf16)
    (x2 x3 : Vec Ideal S1x4096 .f32) (p : Fin 256) (q : Fin 4096) :
    affBlock x0 x1 w x2 x3 (ix2 p q)
      = lin (fun o k => w (ix2 o k)) (fun k => x1 (ix2 (0 : Fin 1) k)) (fun k => x2 (ix2 (0 : Fin 1) k))
          (fun k => x3 (ix2 (0 : Fin 1) k)) (fun k => x0 (ix2 p k)) q := by
  unfold affBlock lin
  show matmul (F := Ideal) _ none _ w _ (ix2 p q) * broadcastTo S256x4096 (shapeCast S1x4096 x2 _) _ (ix2 p q)
    + broadcastTo S256x4096 (shapeCast S1x4096 x3 _) _ (ix2 p q) = _
  rw [contract_apply, rowBcast_apply, rowBcast_apply]
  refine congrArg (fun z => z * x2 (ix2 (0 : Fin 1) q) + x3 (ix2 (0 : Fin 1) q)) (Finset.sum_congr rfl fun k _ => ?_)
  show (shapeCast S256x4096 x0 _ (ix2 p k) * broadcastTo S256x4096 (shapeCast S1x4096 x1 _) _ (ix2 p k)) * w (ix2 q k) = _
  rw [shapeCast_self, rowBcast_apply]

/-- A row's mean at its row. -/
theorem rowMean_apply (h : FVec Ideal S256x4096 .f32) (p : Fin 256) :
    rowMean h (ix2 p (0 : Fin 1)) = mean fun o => h (ix2 p o) := by
  unfold rowMean mean
  show Ideal.div (shapeCast S256x1 (multiReduction .add [1] S256 h 0x00000000#32 _ _ _) _ (ix2 p (0 : Fin 1))) (Ideal.ofBits .f32 0x45800000#32) = _
  rw [keepCol_apply, rowSum_apply]

/-- A centred block at an entry. -/
theorem ctrBlock_apply (h : FVec Ideal S256x4096 .f32) (p : Fin 256) (q : Fin 4096) :
    ctrBlock h (ix2 p q) = ctr (fun o => h (ix2 p o)) q := by
  unfold ctrBlock ctr
  show h (ix2 p q) - broadcastTo S256x4096 (rowMean h) _ (ix2 p q) = _
  rw [colBcast_apply, rowMean_apply]

/-- The normalised block at an entry. -/
theorem nrmBlock_apply (h : FVec Ideal S256x4096 .f32) (p : Fin 256) (q : Fin 4096) :
    nrmBlock h (ix2 p q) = normRsqrt (fun o => h (ix2 p o)) q := by
  unfold nrmBlock normRsqrt var
  show ctrBlock h (ix2 p q) * broadcastTo S256x4096 (rsqrt _) _ (ix2 p q) = _
  rw [colBcast_apply, ctrBlock_apply]
  show _ * Ideal.rsqrt (rowMean (mulf (ctrBlock h) (ctrBlock h)) (ix2 p (0 : Fin 1)) + Ideal.ofBits .f32 0x3727C5AC#32) = _
  rw [rowMean_apply]
  refine congrArg (fun z => ctr (fun o => h (ix2 p o)) q * Ideal.rsqrt (mean z + eps)) (funext fun o => ?_)
  show ctrBlock h (ix2 p o) * ctrBlock h (ix2 p o) = _
  rw [ctrBlock_apply]

/-- The whole payload at an entry of the block: the row computation, with the reciprocal root, of row `p` at channel `q`. -/
theorem pay_apply (x0 : Vec Ideal S256x4096 .f32) (x1 : Vec Ideal S1x4096 .f32) (w : Vec Ideal S4096x4096 .bf16)
    (x2 x3 x4 x5 : Vec Ideal S1x4096 .f32) (p : Fin 256) (q : Fin 4096) :
    k0_pay1 (k0_pay2 x0 x1 w x2 x3) x4 x5 (ix2 p q)
      = outRsqrt (fun o k => w (ix2 o k)) (fun k => x1 (ix2 (0 : Fin 1) k)) (fun k => x2 (ix2 (0 : Fin 1) k))
          (fun k => x3 (ix2 (0 : Fin 1) k)) (fun k => x4 (ix2 (0 : Fin 1) k)) (fun k => x5 (ix2 (0 : Fin 1) k))
          (fun k => x0 (ix2 p k)) q := by
  rw [pay2_eq]
  unfold k0_pay1 outRsqrt
  show nrmBlock (affBlock x0 x1 w x2 x3) (ix2 p q) * broadcastTo S256x4096 (shapeCast S1x4096 x4 _) _ (ix2 p q)
    + broadcastTo S256x4096 (shapeCast S1x4096 x5 _) _ (ix2 p q) = _
  rw [nrmBlock_apply, rowBcast_apply, rowBcast_apply]
  refine congrArg (fun z => normRsqrt z q * x4 (ix2 (0 : Fin 1) q) + x5 (ix2 (0 : Fin 1) q)) (funext fun o => ?_)
  exact affBlock_apply x0 x1 w x2 x3 p o

end Cert.KernelIdeal.KValue

end
-- ==== Proof.AfterPoint.lean ====
/-
  What the output block and the scratch buffer hold after each grid point, by induction on the point: the scratch always
  holds the matrix of signs, so every point's output block is the same payload of its own input blocks.
-/
import proofs.«112393_j80350248173700_1_alg».proof.Proof.Pieces
import proofs.«112393_j80350248173700_1_alg».proof.Proof.Payload
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.SignLinearNorm

variable {F : FTy → Type} [FloatOps F]
variable (m : (ℓ : Loc nD τ sig) → Buf (Elt F) ℓ) (ρ : Dev nD → PrngReg)

/-! ## Names of literal type for the blocks and arrays a point reads -/

abbrev xblk (c : Dev nD) (t : Fin cfg0.N) : Vec F S256x4096 .f32 := iblk m c 0 t
abbrev ablk (c : Dev nD) (t : Fin cfg0.N) : Vec F S1x4096 .f32 := iblk m c 1 t
abbrev sblk (c : Dev nD) (t : Fin cfg0.N) : Vec F S1x4096 .f32 := iblk m c 2 t
abbrev bblk (c : Dev nD) (t : Fin cfg0.N) : Vec F S1x4096 .f32 := iblk m c 3 t
abbrev gblk (c : Dev nD) (t : Fin cfg0.N) : Vec F S1x4096 .f32 := iblk m c 4 t
abbrev eblk (c : Dev nD) (t : Fin cfg0.N) : Vec F S1x4096 .f32 := iblk m c 5 t
abbrev wmat (c : Dev nD) : Vec F S4096x4096 .bf16 := V m c main_v4

/-! ## After every point -/

/-- The scratch holds the matrix of signs after every point: copied in at the first point of a run of sixteen, kept
    at the others. -/
theorem scratch_eq (c : Dev nD) : ∀ (n : ℕ) (hn : n < cfg0.N), (outsAt0 m c n hn).2 = wmat m c
  | 0, hn => by
    rw [outsAt0_A m c ⟨0, hn⟩ rfl]
    dsimp only
    exact scratch_copy c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr rfl)
      (xblk m c ⟨0, hn⟩) (ablk m c ⟨0, hn⟩) (sblk m c ⟨0, hn⟩) (bblk m c ⟨0, hn⟩) (gblk m c ⟨0, hn⟩) (eblk m c ⟨0, hn⟩) (wmat m c)
  | n + 1, hn => by
    by_cases h0 : (n + 1) % 16 = 0
    · rw [outsAt0_A m c ⟨n + 1, hn⟩ h0]
      dsimp only
      exact scratch_copy c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0)
        (xblk m c ⟨n + 1, hn⟩) (ablk m c ⟨n + 1, hn⟩) (sblk m c ⟨n + 1, hn⟩) (bblk m c ⟨n + 1, hn⟩) (gblk m c ⟨n + 1, hn⟩) (eblk m c ⟨n + 1, hn⟩) (wmat m c)
    · rw [outsAt0_B m c ⟨n + 1, hn⟩ h0]
      dsimp only
      unfold sout0_B_0
      exact scratch_eq c n (Nat.lt_of_succ_lt hn)

/-- The output block after point `t` is the payload of the point's input blocks and the matrix of signs. -/
theorem out_eq (c : Dev nD) (t : Fin cfg0.N) :
    (outsAt0 m c t.val t.isLt).1
      = k0_pay1 (k0_pay2 (xblk m c t) (ablk m c t) (wmat m c) (sblk m c t) (bblk m c t)) (gblk m c t) (eblk m c t) := by
  by_cases h0 : t.val % 16 = 0
  · rw [outsAt0_A m c t h0]
    dsimp only
    exact out_copy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0)
      (xblk m c t) (ablk m c t) (sblk m c t) (bblk m c t) (gblk m c t) (eblk m c t) (wmat m c)
  · rw [outsAt0_B m c t h0]
    dsimp only
    rw [out_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h))
      (xblk m c t) (ablk m c t) (sblk m c t) (bblk m c t) (gblk m c t) (eblk m c t) (outsAt0 m c (t.val - 1) (Nat.lt_of_le_of_lt (Nat.sub_le _ _) t.isLt)).2 (wmat m c),
      scratch_eq m c]

end Cert.KernelIdeal.KValue

end
-- ==== Proof.Region.lean ====
/-
  The region's result array and the program's result.

  Point `t` of the 2 × 16 grid reads rows `256 t … 256 t + 255` of the reshaped input and the whole of each channel row, and
  writes back the same rows of the result, so the blocks tile the array and the array ends as ONE function of the
  arguments: the specification's array. The host line after the region reshapes it to the program's result.
-/
import proofs.«112393_j80350248173700_1_alg».proof.Proof.AfterPoint
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.SignLinearNorm

variable (m : (ℓ : Loc nD τ sig) → Buf (Elt Ideal) ℓ) (ρ : Dev nD → PrngReg)

/-! ## The host lines before the region -/

theorem V_main_v0 (c : Dev nD) :
    V m c main_v0 = shapeCast S8192x4096 (m ((c : Thread nD τ).loc main_arg0)) shapeCasts_S4x2048x4096_S8192x4096 := by
  dsimp only [V, V0]
  simp only [hostOps0, hostOps0_1, hostOps0_2, List.flatten_cons, List.flatten_nil, List.append_nil, List.cons_append, List.nil_append]
  after_results; rfl

theorem V_main_v5 (c : Dev nD) :
    V m c main_v5 = shapeCast S1x4096 (m ((c : Thread nD τ).loc main_arg2)) shapeCasts_S4096_S1x4096 := by
  dsimp only [V, V0]
  simp only [hostOps0, hostOps0_1, hostOps0_2, List.flatten_cons, List.flatten_nil, List.append_nil, List.cons_append, List.nil_append]
  after_results; rfl

theorem V_main_v6 (c : Dev nD) :
    V m c main_v6 = shapeCast S1x4096 (m ((c : Thread nD τ).loc main_arg3)) shapeCasts_S4096_S1x4096 := by
  dsimp only [V, V0]
  simp only [hostOps0, hostOps0_1, hostOps0_2, List.flatten_cons, List.flatten_nil, List.append_nil, List.cons_append, List.nil_append]
  after_results; rfl

theorem V_main_v7 (c : Dev nD) :
    V m c main_v7 = shapeCast S1x4096 (m ((c : Thread nD τ).loc main_arg4)) shapeCasts_S4096_S1x4096 := by
  dsimp only [V, V0]
  simp only [hostOps0, hostOps0_1, hostOps0_2, List.flatten_cons, List.flatten_nil, List.append_nil, List.cons_append, List.nil_append]
  after_results; rfl

theorem V_main_v8 (c : Dev nD) :
    V m c main_v8 = shapeCast S1x4096 (m ((c : Thread nD τ).loc main_arg5)) shapeCasts_S4096_S1x4096 := by
  dsimp only [V, V0]
  simp only [hostOps0, hostOps0_1, hostOps0_2, List.flatten_cons, List.flatten_nil, List.append_nil, List.cons_append, List.nil_append]
  after_results; rfl

theorem V_main_v9 (c : Dev nD) :
    V m c main_v9 = shapeCast S1x4096 (m ((c : Thread nD τ).loc main_arg6)) shapeCasts_S4096_S1x4096 := by
  dsimp only [V, V0]
  simp only [hostOps0, hostOps0_1, hostOps0_2, List.flatten_cons, List.flatten_nil, List.append_nil, List.cons_append, List.nil_append]
  after_results; rfl

/-- The matrix of signs: one where a weight is at least zero, minus one elsewhere (the change of format is the identity). -/
def signs (w : (⟨S4096x4096, .f32⟩ : BufTy).Contents (Elt Ideal)) : (⟨S4096x4096, .bf16⟩ : BufTy).Contents (Elt Ideal) :=
  truncf .bf16 (select (cmpf .oge w (broadcastInDim S4096x4096 ![] bcast_S_S4096x4096 (constant (F := Ideal) S_ .f32 0x00000000#32)))
    (broadcastInDim S4096x4096 ![] bcast_S_S4096x4096 (constant (F := Ideal) S_ .f32 0x3F800000#32))
    (broadcastInDim S4096x4096 ![] bcast_S_S4096x4096 (constant (F := Ideal) S_ .f32 0xBF800000#32))) bitsLt_bf16_f32

theorem V_main_v4 (c : Dev nD) : V m c main_v4 = signs (m ((c : Thread nD τ).loc main_arg1)) := by
  dsimp only [V, V0]
  simp only [hostOps0, hostOps0_1, hostOps0_2, List.flatten_cons, List.flatten_nil, List.append_nil, List.cons_append, List.nil_append]
  after_results; rfl

/-! ## Where the blocks sit -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem xblk_apply (c : Dev nD) (t : Fin cfg0.N) (p : Fin 256) (k : Fin 4096) (hr : 256 * t.val + p.val < 8192) :
    xblk m c t (ix2 p k) = V m c main_v0 (ix2 (⟨256 * t.val + p.val, hr⟩ : Fin 8192) k) := by
  obtain ⟨e0, e1, -⟩ := idx_facts t
  show V m c main_v0 (((cfg0.win 0).blk t).view.emb (ix2 p k)) = V m c main_v0 _
  refine congrArg (V m c main_v0) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 4096 + 1 * k.val = k.val; rw [e1]; omega

theorem ablk_apply (c : Dev nD) (t : Fin cfg0.N) (k : Fin 4096) :
    ablk m c t (ix2 (0 : Fin 1) k) = m ((c : Thread nD τ).loc main_arg2) (ix1 k) := by
  obtain ⟨-, -, e0, e1, -⟩ := idx_facts t
  have hb : ablk m c t (ix2 (0 : Fin 1) k) = V m c main_v5 (ix2 (0 : Fin 1) k) := by
    show V m c main_v5 (((cfg0.win 1).blk t).view.emb (ix2 (0 : Fin 1) k)) = _
    refine congrArg (V m c main_v5) (funext fun a => Fin.ext ?_)
    match a with
    | ⟨0, _⟩ => show win0_1.index t (0 : Fin 2) * 1 + 1 * 0 = 0; rw [e0]
    | ⟨1, _⟩ => show win0_1.index t (1 : Fin 2) * 4096 + 1 * k.val = k.val; rw [e1]; omega
  rw [hb, V_main_v5]
  exact shapeCast_a_1a_apply _ _ (0 : Fin 1) k

theorem sblk_apply (c : Dev nD) (t : Fin cfg0.N) (k : Fin 4096) :
    sblk m c t (ix2 (0 : Fin 1) k) = m ((c : Thread nD τ).loc main_arg3) (ix1 k) := by
  obtain ⟨-, -, -, -, e0, e1, -⟩ := idx_facts t
  have hb : sblk m c t (ix2 (0 : Fin 1) k) = V m c main_v6 (ix2 (0 : Fin 1) k) := by
    show V m c main_v6 (((cfg0.win 2).blk t).view.emb (ix2 (0 : Fin 1) k)) = _
    refine congrArg (V m c main_v6) (funext fun a => Fin.ext ?_)
    match a with
    | ⟨0, _⟩ => show win0_2.index t (0 : Fin 2) * 1 + 1 * 0 = 0; rw [e0]
    | ⟨1, _⟩ => show win0_2.index t (1 : Fin 2) * 4096 + 1 * k.val = k.val; rw [e1]; omega
  rw [hb, V_main_v6]
  exact shapeCast_a_1a_apply _ _ (0 : Fin 1) k

theorem bblk_apply (c : Dev nD) (t : Fin cfg0.N) (k : Fin 4096) :
    bblk m c t (ix2 (0 : Fin 1) k) = m ((c : Thread nD τ).loc main_arg4) (ix1 k) := by
  obtain ⟨-, -, -, -, -, -, e0, e1, -⟩ := idx_facts t
  have hb : bblk m c t (ix2 (0 : Fin 1) k) = V m c main_v7 (ix2 (0 : Fin 1) k) := by
    show V m c main_v7 (((cfg0.win 3).blk t).view.emb (ix2 (0 : Fin 1) k)) = _
    refine congrArg (V m c main_v7) (funext fun a => Fin.ext ?_)
    match a with
    | ⟨0, _⟩ => show win0_3.index t (0 : Fin 2) * 1 + 1 * 0 = 0; rw [e0]
    | ⟨1, _⟩ => show win0_3.index t (1 : Fin 2) * 4096 + 1 * k.val = k.val; rw [e1]; omega
  rw [hb, V_main_v7]
  exact shapeCast_a_1a_apply _ _ (0 : Fin 1) k

theorem gblk_apply (c : Dev nD) (t : Fin cfg0.N) (k : Fin 4096) :
    gblk m c t (ix2 (0 : Fin 1) k) = m ((c : Thread nD τ).loc main_arg5) (ix1 k) := by
  obtain ⟨-, -, -, -, -, -, -, -, e0, e1, -⟩ := idx_facts t
  have hb : gblk m c t (ix2 (0 : Fin 1) k) = V m c main_v8 (ix2 (0 : Fin 1) k) := by
    show V m c main_v8 (((cfg0.win 4).blk t).view.emb (ix2 (0 : Fin 1) k)) = _
    refine congrArg (V m c main_v8) (funext fun a => Fin.ext ?_)
    match a with
    | ⟨0, _⟩ => show win0_4.index t (0 : Fin 2) * 1 + 1 * 0 = 0; rw [e0]
    | ⟨1, _⟩ => show win0_4.index t (1 : Fin 2) * 4096 + 1 * k.val = k.val; rw [e1]; omega
  rw [hb, V_main_v8]
  exact shapeCast_a_1a_apply _ _ (0 : Fin 1) k

theorem eblk_apply (c : Dev nD) (t : Fin cfg0.N) (k : Fin 4096) :
    eblk m c t (ix2 (0 : Fin 1) k) = m ((c : Thread nD τ).loc main_arg6) (ix1 k) := by
  obtain ⟨-, -, -, -, -, -, -, -, -, -, e0, e1, -⟩ := idx_facts t
  have hb : eblk m c t (ix2 (0 : Fin 1) k) = V m c main_v9 (ix2 (0 : Fin 1) k) := by
    show V m c main_v9 (((cfg0.win 5).blk t).view.emb (ix2 (0 : Fin 1) k)) = _
    refine congrArg (V m c main_v9) (funext fun a => Fin.ext ?_)
    match a with
    | ⟨0, _⟩ => show win0_5.index t (0 : Fin 2) * 1 + 1 * 0 = 0; rw [e0]
    | ⟨1, _⟩ => show win0_5.index t (1 : Fin 2) * 4096 + 1 * k.val = k.val; rw [e1]; omega
  rw [hb, V_main_v9]
  exact shapeCast_a_1a_apply _ _ (0 : Fin 1) k

/-! ## The region's result array -/

/-- The array the region leaves, as one function of the program's arguments: the specification's array over the reshaped
    input and the matrix of signs. -/
def regionResult (c : Dev nD) : S8192x4096.Idx → EReal :=
  result (shapeCast S8192x4096 (m ((c : Thread nD τ).loc main_arg0)) shapeCasts_S4x2048x4096_S8192x4096)
    (signs (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6))

/-- Entry `(p, q)` of the block point `t` stores is entry `(256 t + p, q)` of that array: the payload is the row
    computation with the reciprocal root, which is the one with the quotient, and each block is its array read where the
    point's index map puts it. -/
theorem point_eq (c : Dev nD) (t : Fin cfg0.N) (p : Fin 256) (q : Fin 4096) (hr : 256 * t.val + p.val < 8192) :
    k0_pay1 (k0_pay2 (xblk m c t) (ablk m c t) (wmat m c) (sblk m c t) (bblk m c t)) (gblk m c t) (eblk m c t) (ix2 p q)
      = regionResult m c (ix2 (⟨256 * t.val + p.val, hr⟩ : Fin 8192) q) := by
  rw [pay_apply, outRsqrt_eq_outDiv]
  have hx : (fun k => xblk m c t (ix2 p k)) = fun k => shapeCast S8192x4096 (m ((c : Thread nD τ).loc main_arg0)) shapeCasts_S4x2048x4096_S8192x4096 (ix2 (⟨256 * t.val + p.val, hr⟩ : Fin 8192) k) :=
    funext fun k => (xblk_apply m c t p k hr).trans (by rw [V_main_v0])
  have hw : (fun o k => wmat m c (ix2 o k)) = fun o k => signs (m ((c : Thread nD τ).loc main_arg1)) (ix2 o k) := by
    show (fun o k => V m c main_v4 (ix2 o k)) = _
    rw [V_main_v4]
  have ha : (fun k => ablk m c t (ix2 (0 : Fin 1) k)) = fun k => m ((c : Thread nD τ).loc main_arg2) (ix1 k) := funext fun k => ablk_apply m c t k
  have hs : (fun k => sblk m c t (ix2 (0 : Fin 1) k)) = fun k => m ((c : Thread nD τ).loc main_arg3) (ix1 k) := funext fun k => sblk_apply m c t k
  have hb : (fun k => bblk m c t (ix2 (0 : Fin 1) k)) = fun k => m ((c : Thread nD τ).loc main_arg4) (ix1 k) := funext fun k => bblk_apply m c t k
  have hg : (fun k => gblk m c t (ix2 (0 : Fin 1) k)) = fun k => m ((c : Thread nD τ).loc main_arg5) (ix1 k) := funext fun k => gblk_apply m c t k
  have he : (fun k => eblk m c t (ix2 (0 : Fin 1) k)) = fun k => m ((c : Thread nD τ).loc main_arg6) (ix1 k) := funext fun k => eblk_apply m c t k
  rw [hx, hw, ha, hs, hb, hg, he]
  rfl

/-- What point `t` writes back is block `t` of that array. -/
theorem flushed_eq (c : Dev nD) (t : Fin cfg0.N) :
    (dats m 0 c).flushed 6 t = ((cfg0.win 6).blk t).view.read (Elt Ideal) (regionResult m c) := by
  show (cfg0.win 6).cut (grid0.coords t) ((dats m 0 c).after 6 t) = _
  rw [after0_6, out_eq]
  have hN : t.val < 32 := lt_of_lt_of_eq t.isLt N_0
  obtain ⟨-, -, -, -, -, -, -, -, -, -, -, -, e0, e1⟩ := idx_facts t
  refine funext fun (j : S256x4096.Idx) => ?_
  obtain ⟨p, q, rfl⟩ : ∃ (p : Fin 256) (q : Fin 4096), j = ix2 p q := ⟨j 0, j 1, eq_ix2 j⟩
  have hr : 256 * t.val + p.val < 8192 := by have := p.isLt; omega
  show k0_pay1 (k0_pay2 (xblk m c t) (ablk m c t) (wmat m c) (sblk m c t) (bblk m c t)) (gblk m c t) (eblk m c t) (ix2 p q)
    = regionResult m c (((cfg0.win 6).blk t).view.emb (ix2 p q))
  refine (point_eq m c t p q hr).trans ?_
  refine congrArg (regionResult m c) (funext fun a => Fin.ext ?_)
  match a with
  | ⟨0, _⟩ => show 256 * t.val + p.val = win0_6.index t (0 : Fin 2) * 256 + 1 * p.val; rw [e0]; omega
  | ⟨1, _⟩ => show q.val = win0_6.index t (1 : Fin 2) * 4096 + 1 * q.val; rw [e1]; omega

/-- An entry of the array is in point `t`'s block iff each coordinate is in the block's range on its axis. -/
theorem mem_blk (t : Fin cfg0.N) (i : S8192x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v10).slice (win0_6.rect t)).set ↔ _
  rw [View.set_slice_whole, Rect.mem_set_unit]
  exact Iff.rfl

/-- Row `r` of the array is written back by point `r / 256`. -/
theorem covered (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 32 := N_0
  have hlt : (i 0).val / 256 < cfg0.N := by rw [hN]; omega
  obtain ⟨-, -, -, -, -, -, -, -, -, -, -, -, e0, e1⟩ := idx_facts ⟨(i 0).val / 256, hlt⟩
  refine ⟨⟨(i 0).val / 256, hlt⟩, flush0_6 _, ?_⟩
  rw [mem_blk]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hlt⟩ (1 : Fin 2) * 4096 ≤ (i 1).val ∧ (i 1).val < win0_6.index ⟨(i 0).val / 256, hlt⟩ (1 : Fin 2) * 4096 + 4096
    rw [e1]; omega

/-- The array after the run. -/
theorem final (c : Dev nD) : (dats m 0 c).arrAt 6 cfg0.N = regionResult m c :=
  (dats m 0 c).arrAt_eq_of_cover 6 (regionResult m c) (fun t _ => flushed_eq m c t) (covered)

/-- The program's result: the host line after the region reshapes that array. -/
theorem result_v11 (c : Dev nD) :
    Pipeline.afterTail₀ cfgs (dats m) 0 (V0 m) [hostOps1] c main_v11
      = shapeCast S4x2048x4096 (regionResult m c) shapeCasts_S8192x4096_S4x2048x4096 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = regionResult m c :=
    (Pipeline.withArrays_arr spec0 launch0.win.arr_inj c (V0 m c) (fun w => (dats m 0 c).arrAt w (cfgs 0).N) 6).trans (final m c)
  rw [e]
  rfl

/-- The run, read: the program's result is the reshaped array of the specification, and the arguments are unchanged. -/
theorem run : θ_run defs (onTc (τ := τ) (main (F := Ideal))) ⟨m, fun _ => 0, ρ⟩ fun r => ∀ c : Dev nD,
      r.2.mem ((c.tc : Thread nD τ).loc main_v11) = shapeCast S4x2048x4096 (regionResult m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v11 (Pipeline.mem_restRefs_of main_v11 (by decide) (by decide))).trans (result_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefSide.lean ====
/-
  The reference computes the specification: its last two-dimensional stage, read channel by channel, is the row
  computation with the quotient by the root, over the reshaped input and the matrix of signs. Every stage of the
  reference is read at an index by its generated lemma; written here are the coordinates those reads meet at.
-/
import proofs.«112393_j80350248173700_1_alg».proof.Proof.Gen.ReferenceIdeal.Read
import proofs.«112393_j80350248173700_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SignLinearNorm

variable (x0 : (⟨S4x2048x4096, .f32⟩ : BufTy).Contents (Elt Ideal)) (x1 : (⟨S4096x4096, .f32⟩ : BufTy).Contents (Elt Ideal))
  (x2 x3 x4 x5 x6 : (⟨S4096, .f32⟩ : BufTy).Contents (Elt Ideal))

/-! ## Coordinates -/

/-- The contraction reads row `n` of the scaled input against row `o` of the matrix. -/
theorem lidx_eq (n : Fin 8192) (o k : Fin 4096) : lidx_main_v8 (ix2 n o) k = ix2 n k :=
  funext fun a => Fin.ext (by match a with | ⟨0, _⟩ => rfl | ⟨1, _⟩ => rfl)
theorem ridx_eq (n : Fin 8192) (o k : Fin 4096) : ridx_main_v8 (ix2 n o) k = ix2 o k :=
  funext fun a => Fin.ext (by match a with | ⟨0, _⟩ => rfl | ⟨1, _⟩ => rfl)

/-- A channel vector broadcast to a row and then down the rows is read at its channel. -/
theorem chan_eq_a (n : Fin 8192) (k : Fin 4096) : idx_main_v5 (idx_main_v6 (ix2 n k)) = ix1 k :=
  funext fun a => Fin.ext (by match a with | ⟨0, _⟩ => rfl)
theorem chan_eq_s (n : Fin 8192) (k : Fin 4096) : idx_main_v9 (idx_main_v10 (ix2 n k)) = ix1 k :=
  funext fun a => Fin.ext (by match a with | ⟨0, _⟩ => rfl)
theorem chan_eq_b (n : Fin 8192) (k : Fin 4096) : idx_main_v12 (idx_main_v13 (ix2 n k)) = ix1 k :=
  funext fun a => Fin.ext (by match a with | ⟨0, _⟩ => rfl)
theorem chan_eq_g (n : Fin 8192) (k : Fin 4096) : idx_main_v33 (idx_main_v34 (ix2 n k)) = ix1 k :=
  funext fun a => Fin.ext (by match a with | ⟨0, _⟩ => rfl)
theorem chan_eq_be (n : Fin 8192) (k : Fin 4096) : idx_main_v36 (idx_main_v37 (ix2 n k)) = ix1 k :=
  funext fun a => Fin.ext (by match a with | ⟨0, _⟩ => rfl)

/-- A row statistic kept as a column and broadcast back along the row is a sum over the same row. -/
theorem row_idx_mean (n : Fin 8192) (o k : Fin 4096) : idx_main_v15 (idx_main_v16 (idx_main_v26 (ix2 n o))) k = ix2 n k :=
  funext fun a => Fin.ext (by match a with | ⟨0, _⟩ => rfl | ⟨1, _⟩ => rfl)
theorem row_idx_var (n : Fin 8192) (o k : Fin 4096) : idx_main_v22 (idx_main_v23 (idx_main_v31 (ix2 n o))) k = ix2 n k :=
  funext fun a => Fin.ext (by match a with | ⟨0, _⟩ => rfl | ⟨1, _⟩ => rfl)
theorem row_idx_ctr (n : Fin 8192) (o k : Fin 4096) : idx_main_v15 (idx_main_v16 (idx_main_v19 (ix2 n o))) k = ix2 n k :=
  funext fun a => Fin.ext (by match a with | ⟨0, _⟩ => rfl | ⟨1, _⟩ => rfl)

/-! ## The stages -/

/-- The affine stage: scaled inputs against the matrix's row, then the output channel's scale and shift. -/
theorem affine_eq (n : Fin 8192) (o : Fin 4096) :
    val_main_v14 (F := Ideal) x0 x1 x2 x3 x4 (ix2 n o)
      = lin (fun o k => val_main_v4 (F := Ideal) x1 (ix2 o k)) (fun k => x2 (ix1 k)) (fun k => x3 (ix1 k)) (fun k => x4 (ix1 k))
          (fun k => val_main_v0 (F := Ideal) x0 (ix2 n k)) o := by
  rw [val_main_v14_apply, val_main_v11_apply, val_main_v8_apply, val_main_v13_apply, val_main_v12_apply,
    val_main_v10_apply, val_main_v9_apply]
  simp only [lidx_eq, ridx_eq, val_main_v7_apply, val_main_v6_apply, val_main_v5_apply, chan_eq_a, chan_eq_s, chan_eq_b]
  rfl

/-- The normalised, scaled and shifted stage is the row computation of row `n` at channel `o`: the two row sums start
    from the zero word, which adds nothing, and the words divided by and added under the root are the specification's. -/
theorem stage_eq (n : Fin 8192) (o : Fin 4096) :
    val_main_v38 (F := Ideal) x0 x1 x2 x3 x4 x5 x6 (ix2 n o)
      = outDiv (fun o k => val_main_v4 (F := Ideal) x1 (ix2 o k)) (fun k => x2 (ix1 k)) (fun k => x3 (ix1 k)) (fun k => x4 (ix1 k))
          (fun k => x5 (ix1 k)) (fun k => x6 (ix1 k)) (fun k => val_main_v0 (F := Ideal) x0 (ix2 n k)) o := by
  rw [val_main_v38_apply, val_main_v35_apply, val_main_v32_apply, val_main_v37_apply, val_main_v36_apply, val_main_v34_apply, val_main_v33_apply,
    val_main_v31_apply, val_main_v30_apply, val_main_v29_apply, val_main_v28_apply, val_main_cst_6_apply, val_main_v25_apply, val_main_v24_apply, val_main_cst_5_apply,
    val_main_v23_apply, val_main_v22_apply, val_main_cst_4_apply, val_main_v27_apply, val_main_v26_apply, val_main_v18_apply, val_main_v17_apply, val_main_cst_3_apply,
    val_main_v16_apply, val_main_v15_apply, val_main_cst_2_apply]
  simp only [val_main_v21_apply, val_main_v20_apply, val_main_v19_apply, val_main_v18_apply, val_main_v17_apply, val_main_cst_3_apply,
    val_main_v16_apply, val_main_v15_apply, val_main_cst_2_apply, chan_eq_g, chan_eq_be, row_idx_mean, row_idx_var, row_idx_ctr,
    affine_eq, Ideal.ofBits_def, Ideal.ofBits_zero_f32, zero_add]
  rfl

/-- The reference's last two-dimensional stage is the specification's array. -/
theorem stage_eq_result :
    val_main_v38 (F := Ideal) x0 x1 x2 x3 x4 x5 x6
      = result (val_main_v0 (F := Ideal) x0) (val_main_v4 (F := Ideal) x1) x2 x3 x4 x5 x6 := by
  funext i
  obtain ⟨n, o, rfl⟩ : ∃ (n : Fin 8192) (o : Fin 4096), i = ix2 n o := ⟨i 0, i 1, eq_ix2 i⟩
  exact stage_eq x0 x1 x2 x3 x4 x5 x6 n o

end Cert.ReferenceIdeal.RefValue

end
-- ==== Proof.lean ====
/-
  The certificate's claims.

  Both programs compute, for each of the 8192 rows of the reshaped input, an affine row — the channel-scaled inputs
  contracted against the matrix of signs of the weights, then scaled and shifted per output channel — and normalise it over
  its 4096 channels: the kernel 256 rows at a grid point, multiplying the centred row by the reciprocal root of its mean
  square plus a small positive constant; the reference all rows at once, dividing by the root. The radicand is always above
  zero, where the two agree on the extended reals, so both results are the same reshaped array.

  The kernel's run is read off its frame run (the matrix of signs stays in the scratch buffer after every point, so each
  point's block is the same payload of its own input blocks, and the blocks tile the result); the reference's run is read
  stage by stage. The three frames are those runs with the result dropped, and nothing was rewritten between the kernel and
  its idealization.
-/
import proofs.«112393_j80350248173700_1_alg».proof.Defs
import proofs.«112393_j80350248173700_1_alg».proof.Proof.Gen.Kernel
import proofs.«112393_j80350248173700_1_alg».proof.Proof.Gen.Kernel.Skeleton
import proofs.«112393_j80350248173700_1_alg».proof.Proof.Gen.Kernel.Launch
import proofs.«112393_j80350248173700_1_alg».proof.Proof.Gen.Kernel.Points
import proofs.«112393_j80350248173700_1_alg».proof.Proof.Gen.Kernel.Frame
import proofs.«112393_j80350248173700_1_alg».proof.Proof.Gen.KernelIdeal
import proofs.«112393_j80350248173700_1_alg».proof.Proof.Gen.KernelIdeal.Skeleton
import proofs.«112393_j80350248173700_1_alg».proof.Proof.Gen.KernelIdeal.Launch
import proofs.«112393_j80350248173700_1_alg».proof.Proof.Gen.KernelIdeal.Points
import proofs.«112393_j80350248173700_1_alg».proof.Proof.Gen.KernelIdeal.Frame
import proofs.«112393_j80350248173700_1_alg».proof.Proof.Gen.ReferenceIdeal
import proofs.«112393_j80350248173700_1_alg».proof.Proof.Gen.ReferenceIdeal.Run
import proofs.«112393_j80350248173700_1_alg».proof.Proof.Gen.ReferenceIdeal.Read
import proofs.«112393_j80350248173700_1_alg».proof.Proof.Gen.Pre_finite_inputs
import proofs.«112393_j80350248173700_1_alg».proof.Proof.Region
import proofs.«112393_j80350248173700_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result is the reshaped array of the specification over its own
    arguments, and the reference's last stage is the specification's array over its arguments: the same term once the
    agreement is rewritten (the kernel's change of format of the signs and the reference's identity are both the identity). -/
theorem algebraic : Cert.algebraic_KernelIdeal_ReferenceIdeal := by
  intro m ρ m' ρ' _ hagree
  refine ⟨fun c => shapeCast Cert.KernelIdeal.S4x2048x4096 (Cert.KernelIdeal.KValue.regionResult m c)
    Cert.KernelIdeal.Gen.shapeCasts_S8192x4096_S4x2048x4096, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  unfold Cert.ReferenceIdeal.Read.val_main_v39
  rw [Cert.ReferenceIdeal.RefValue.stage_eq_result]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
